-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256 : Shape := ⟨3, ![16, 256, 256]⟩
abbrev S1x8192x256 : Shape := ⟨3, ![1, 8192, 256]⟩
abbrev S_ : Shape := ⟨0, ![]⟩

class Facts : Prop where
  bcast_S_S16x256x256 : S_.BroadcastsInDim S16x256x256 (![] : Fin 0 → Fin S16x256x256.rank)
  reducesTo_S16x256x256_S_d0_1_2 : S16x256x256.ReducesTo [0, 1, 2] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_

variable [Facts]

def fn {F : FTy → Type} [FloatOps F] (main_arg0 : FVec F S16x256x256 .f32) (main_arg1 : FVec F S1x8192x256 .f32) : IVec S_ 1 :=
  let main_v0 : FVec F S16x256x256 .f32 := Host.absf main_arg0
  let main_cst : FVec F S_ .f32 := constant S_ .f32 0x7F800000#32
  let main_v1 : FVec F S16x256x256 .f32 := broadcastInDim S16x256x256 ![] bcast_S_S16x256x256 main_cst
  let main_v2 : IVec S16x256x256 1 := cmpf .olt main_v0 main_v1
  let main_c : IVec S_ 1 := constantI S_ 1 1#1
  let main_v3 : IVec S_ 1 := (fun x v => Host.reduce IntOp.andi x v reducesTo_S16x256x256_S_d0_1_2 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  main_v8
-- ==== Kernel.lean ====
abbrev S16x256x256 : Shape := ⟨3, ![16, 256, 256]⟩
abbrev S1x8192x256 : Shape := ⟨3, ![1, 8192, 256]⟩
abbrev S4096x256 : Shape := ⟨2, ![4096, 256]⟩
abbrev S8192x256 : Shape := ⟨2, ![8192, 256]⟩
abbrev S4096x8192 : Shape := ⟨2, ![4096, 8192]⟩
abbrev S16x256x8192 : Shape := ⟨3, ![16, 256, 8192]⟩
abbrev S256x256 : Shape := ⟨2, ![256, 256]⟩
abbrev S256x8192 : Shape := ⟨2, ![256, 8192]⟩
abbrev S256 : Shape := ⟨1, ![256]⟩
abbrev S256x1 : Shape := ⟨2, ![256, 1]⟩
abbrev S8192 : Shape := ⟨1, ![8192]⟩
abbrev S1x8192 : Shape := ⟨2, ![1, 8192]⟩

abbrev nBuf : Space → Nat
  | .hbm => 6
  | .vmem => 5
  | .smem => 0
  | _ => 0

abbrev bufTy : (tb : Table) → Fin (tcTables nBuf tb) → BufTy
  | .hbm, ⟨0, _⟩ => ⟨S16x256x256, .f32⟩
  | .hbm, ⟨1, _⟩ => ⟨S1x8192x256, .f32⟩
  | .hbm, ⟨2, _⟩ => ⟨S4096x256, .f32⟩
  | .hbm, ⟨3, _⟩ => ⟨S8192x256, .f32⟩
  | .hbm, ⟨4, _⟩ => ⟨S4096x8192, .f32⟩
  | .hbm, ⟨5, _⟩ => ⟨S16x256x8192, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S256x8192, .f32⟩
  | .local _ .vmem, ⟨4, _⟩ => ⟨S256x8192, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x256_S4096x256 : S16x256x256.ShapeCasts S4096x256
  shapeCasts_S1x8192x256_S8192x256 : S1x8192x256.ShapeCasts S8192x256
  shapeCasts_S4096x8192_S16x256x8192 : S4096x8192.ShapeCasts S16x256x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S256x256_S256 : S256x256.Reduces [1] S256
  shapeCasts_S256_S256x1 : S256.ShapeCasts S256x1
  reduces_S8192x256_S8192 : S8192x256.Reduces [1] S8192
  shapeCasts_S8192_S1x8192 : S8192.ShapeCasts S1x8192
  broadcasts_S256x1_S256x8192 : S256x1.Broadcasts S256x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S4096x8192.size a
  hwx0_2 : ∀ i : grid0.Coords, EltTy.bits .f32 = 32 ∨ (Rect.block (s := S4096x8192) S256x8192.size (cc0_transform_2 i) (hinb0_2 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_call0_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x256 : Shape := ⟨3, ![16, 256, 256]⟩
abbrev S1x8192x256 : Shape := ⟨3, ![1, 8192, 256]⟩
abbrev S4096x256 : Shape := ⟨2, ![4096, 256]⟩
abbrev S8192x256 : Shape := ⟨2, ![8192, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S256x8192 : Shape := ⟨2, ![256, 8192]⟩
abbrev S16x256x8192 : Shape := ⟨3, ![16, 256, 8192]⟩

abbrev nBuf : Space → Nat
  | .hbm => 22
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S1x8192x256, .f32⟩
  | .hbm, ⟨2, _⟩ => ⟨S4096x256, .f32⟩
  | .hbm, ⟨3, _⟩ => ⟨S8192x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S256x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S16x256x8192, .f32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S16x256x256_S4096x256 : S16x256x256.ShapeCasts S4096x256
  shapeCasts_S1x8192x256_S8192x256 : S1x8192x256.ShapeCasts S8192x256
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S8192x256_S8192_d1 : S8192x256.ReducesTo [1] S8192
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  transposes_S8192x256_S256x8192_1_0 : S8192x256.Transposes [1, 0] S256x8192
  bcast_S_S4096x8192 : S_.BroadcastsInDim S4096x8192 (![] : Fin 0 → Fin S4096x8192.rank)
  shapeCasts_S4096x8192_S16x256x8192 : S4096x8192.ShapeCasts S16x256x8192
  dot_S4096x256_S256x8192_S4096x8192_1_0_0_1_n_n_wf : DotDims.WF S4096x256 S256x8192 S4096x8192 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.SqDist.lean ====
/-
  The squared Euclidean distance from every feature row to every codebook centre, in its expanded form

      sqdist r k = (‖x_r‖² + ‖c_k‖²) - 2 · ⟨x_r, c_k⟩,

  over the extended reals: ‖x_r‖² = ∑ d, x_r d · x_r d, ‖c_k‖² = ∑ d, c_k d · c_k d and
  ⟨x_r, c_k⟩ = ∑ d, x_r d · c_k d, each a sum over the 256 feature coordinates. Both programs compute this
  expression with the same association — the two squared norms are added first and twice the inner product is
  subtracted from that sum — so no law of the extended reals beyond the definition of the three sums is needed,
  and no finiteness of the inputs.

  The features arrive as a [16, 256, 256] array and the codebook as a [1, 8192, 256] array; both programs flatten
  them to 4096 rows and 8192 centres of 256 coordinates, compute the [4096, 8192] table of distances and
  give it back as [16, 256, 8192]. `result` is that composition.
-/
import Idealize.ShloMosaic.PureOps.Ideal
import Idealize.ShloMosaic.Lib.ValueIdx

noncomputable section

namespace Cert.SqDist

open Idealize.ShloMosaic Idealize.ShloMosaic.ValueIdx

/-- The feature rows: 4096 rows of 256 coordinates. -/
abbrev Rows : Shape := ⟨2, ![4096, 256]⟩
/-- The codebook centres: 8192 centres of 256 coordinates. -/
abbrev Centres : Shape := ⟨2, ![8192, 256]⟩
/-- The table of distances: one entry per (row, centre). -/
abbrev Table : Shape := ⟨2, ![4096, 8192]⟩
/-- The features as the programs receive them. -/
abbrev Feats3 : Shape := ⟨3, ![16, 256, 256]⟩
/-- The codebook as the programs receive it. -/
abbrev Code3 : Shape := ⟨3, ![1, 8192, 256]⟩
/-- The distances as the programs return them. -/
abbrev Out3 : Shape := ⟨3, ![16, 256, 8192]⟩

/-- The factor of the inner product: the binary32 word of 2.0, the same word in both programs, never evaluated. -/
abbrev two : EReal := Ideal.ofBits .f32 0x40000000#32

/-- The expanded squared distance from row `i 0` to centre `i 1`. -/
def sqdist (X : Rows.Idx → EReal) (C : Centres.Idx → EReal) : Table.Idx → EReal := fun i =>
  ((∑ d : Fin 256, X (ix2 (i 0) d) * X (ix2 (i 0) d)) + ∑ d : Fin 256, C (ix2 (i 1) d) * C (ix2 (i 1) d))
    - two * ∑ d : Fin 256, X (ix2 (i 0) d) * C (ix2 (i 1) d)

/-- The whole computation: flatten the features and the codebook, take the table of distances, and reshape it back. -/
def result (x : Feats3.Idx → EReal) (ck : Code3.Idx → EReal) : Out3.Idx → EReal :=
  shapeCast Out3 (sqdist (shapeCast Rows x (by decide)) (shapeCast Centres ck (by decide))) (by decide)

end Cert.SqDist

end
-- ==== Proof.RefTable.lean ====
/-
  The reference computes the squared-distance table of `Cert.SqDist`: read one operation at a time at an index
  (row r, centre k) of the [4096, 8192] table, its squared norms are the host sums over the 256 coordinates of
  row r and of centre k (each from the initial value 0), its inner product is the host contraction of the
  flattened features with the transposed flattened codebook — the transposition only exchanges the two coordinates
  of the codebook index, so the factor at coordinate d is centre k at d —, and the three are combined as
  (‖x_r‖² + ‖c_k‖²) - 2 · ⟨x_r, c_k⟩. The reshapes before and after are the same casts as the specification's.
-/
import proofs.«157094_g30906584662302_cont_sun_m_844_13_alg».proof.Proof.Gen.ReferenceIdeal.Read
import proofs.«157094_g30906584662302_cont_sun_m_844_13_alg».proof.Proof.SqDist

noncomputable section

namespace Cert.ReferenceIdeal.RefValue

open Cert.ReferenceIdeal Cert.ReferenceIdeal.Read Idealize.ShloMosaic Idealize.ShloMosaic.ValueIdx Cert.SqDist

/-- The row summed for ‖x_r‖²: the broadcasts back from [4096] through [4096, 1] to [4096, 8192] keep the row. -/
theorem idx_row_norm (i : S4096x8192.Idx) (k : Fin 256) :
    idx_main_v3 (idx_main_v4 (idx_main_v8 i)) k = ix2 (i 0) k :=
  funext fun a => Fin.ext (by match a with | ⟨0, _⟩ => rfl | ⟨1, _⟩ => rfl)

/-- The centre summed for ‖c_k‖²: the broadcasts back from [8192] through [1, 8192] to [4096, 8192] keep the column. -/
theorem idx_centre_norm (i : S4096x8192.Idx) (k : Fin 256) :
    idx_main_v6 (idx_main_v7 (idx_main_v9 i)) k = ix2 (i 1) k :=
  funext fun a => Fin.ext (by match a with | ⟨0, _⟩ => rfl | ⟨1, _⟩ => rfl)

/-- The left factor of the contraction at coordinate k is row r at k. -/
theorem idx_left (i : S4096x8192.Idx) (k : Fin 256) : lidx_main_v12 i k = ix2 (i 0) k :=
  funext fun a => Fin.ext (by match a with | ⟨0, _⟩ => rfl | ⟨1, _⟩ => rfl)

/-- The right factor, read through the transposition, is centre k at that coordinate. -/
theorem idx_right (i : S4096x8192.Idx) (k : Fin 256) : idx_main_v11 (ridx_main_v12 i k) = ix2 (i 1) k :=
  funext fun a => Fin.ext (by match a with | ⟨0, _⟩ => rfl | ⟨1, _⟩ => rfl)

/-- The reference's [4096, 8192] table is the squared-distance table of its flattened arguments. -/
theorem table_eq (x0 : (⟨S16x256x256, .f32⟩ : BufTy).Contents (Elt Ideal)) (x1 : (⟨S1x8192x256, .f32⟩ : BufTy).Contents (Elt Ideal)) :
    val_main_v15 (F := Ideal) x0 x1 = sqdist (val_main_v0 (F := Ideal) x0) (val_main_v1 (F := Ideal) x1) := by
  funext i
  rw [val_main_v15_apply, val_main_v10_apply, val_main_v14_apply, val_main_v8_apply, val_main_v4_apply, val_main_v3_apply,
    val_main_v9_apply, val_main_v7_apply, val_main_v6_apply, val_main_v13_apply, val_main_cst_1_apply, val_main_v12_apply,
    val_main_cst_apply, val_main_cst_0_apply]
  simp only [val_main_v2_apply, val_main_v5_apply, val_main_v11_apply, idx_row_norm, idx_centre_norm, idx_left, idx_right,
    Ideal.ofBits_def, Ideal.ofBits_zero_f32, zero_add, Ideal.addf_def, Ideal.subf_def, Ideal.mulf_def]
  rfl

/-- The reference's result is `Cert.SqDist.result` of its arguments. -/
theorem result_eq (x0 : (⟨S16x256x256, .f32⟩ : BufTy).Contents (Elt Ideal)) (x1 : (⟨S1x8192x256, .f32⟩ : BufTy).Contents (Elt Ideal)) :
    val_main_v16 (F := Ideal) x0 x1 = result x0 x1 := by
  unfold val_main_v16 result
  rw [table_eq]
  rfl

end Cert.ReferenceIdeal.RefValue

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What the kernel body stores, read at one entry. The body loads a block of 256 feature rows `xb` and the whole
  codebook `cb` and stores, at (p, q) of its [256, 8192] block,

      (‖xb_p‖² + ‖cb_q‖²) - 2 · ⟨xb_p, cb_q⟩ :

  the row norms are a lane sum of the squares kept as a [256, 1] column and broadcast along the centres, the
  centre norms a lane sum kept as a [1, 8192] row and broadcast along the rows, and the inner products one matrix
  product of the rows with the centres contracted over the 256 coordinates, into a zero accumulator. Over the
  extended reals each lane sum is the sum over the coordinate, the matrix product the sum of the products.
-/
import proofs.«157094_g30906584662302_cont_sun_m_844_13_alg».proof.Proof.Gen.KernelIdeal.Skeleton
import proofs.«157094_g30906584662302_cont_sun_m_844_13_alg».proof.Proof.SqDist
import proofs.«157094_g30906584662302_cont_sun_m_844_13_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.SqDist Cert.LibColumn

/-! ## The contraction's operand indices, axis by axis -/

theorem lhs_rows_0 (i : S256x8192.Idx) (q : dot_S256x256_S8192x256_S256x8192_1_1_0_0_n_n.contr.Idx) :
    (dot_S256x256_S8192x256_S256x8192_1_1_0_0_n_n.lhsIdx i q 0).val = (i 0).val := by
  unfold DotDims.lhsIdx
  rw [dif_neg (show ¬(0 : Fin S256x256.rank) ∈ dot_S256x256_S8192x256_S256x8192_1_1_0_0_n_n.lhsBatch by decide), dif_pos (show (0 : Fin S256x256.rank) ∈ dot_S256x256_S8192x256_S256x8192_1_1_0_0_n_n.lhsNonContracting by decide)]
  rfl
theorem lhs_rows_1 (i : S256x8192.Idx) (q : dot_S256x256_S8192x256_S256x8192_1_1_0_0_n_n.contr.Idx) :
    (dot_S256x256_S8192x256_S256x8192_1_1_0_0_n_n.lhsIdx i q 1).val = (q ⟨0, by decide⟩).val :=
  dot_S256x256_S8192x256_S256x8192_1_1_0_0_n_n.lhsIdx_val_of_single rfl i q
theorem rhs_centres_0 (i : S256x8192.Idx) (q : dot_S256x256_S8192x256_S256x8192_1_1_0_0_n_n.contr.Idx) :
    (dot_S256x256_S8192x256_S256x8192_1_1_0_0_n_n.rhsIdx i q 0).val = (i 1).val := by
  unfold DotDims.rhsIdx
  rw [dif_neg (show ¬(0 : Fin S8192x256.rank) ∈ dot_S256x256_S8192x256_S256x8192_1_1_0_0_n_n.rhsBatch by decide), dif_pos (show (0 : Fin S8192x256.rank) ∈ dot_S256x256_S8192x256_S256x8192_1_1_0_0_n_n.rhsNonContracting by decide)]
  rfl
theorem rhs_centres_1 (i : S256x8192.Idx) (q : dot_S256x256_S8192x256_S256x8192_1_1_0_0_n_n.contr.Idx) :
    (dot_S256x256_S8192x256_S256x8192_1_1_0_0_n_n.rhsIdx i q 1).val = (q ⟨0, by decide⟩).val :=
  dot_S256x256_S8192x256_S256x8192_1_1_0_0_n_n.rhsIdx_val_of_single rfl i q

/-- The matrix product of the rows with the centres, at (row, centre): the inner product over the 256 coordinates. -/
theorem inner_at (xb : FVec Ideal S256x256 .f32) (cb : FVec Ideal S8192x256 .f32) (i : S256x8192.Idx) :
    matmul dot_S256x256_S8192x256_S256x8192_1_1_0_0_n_n none xb cb (constant (F := Ideal) S256x8192 .f32 0x00000000#32) i
      = ∑ k : Fin 256, xb (ix2 (i 0) k) * cb (ix2 (i 1) k) := by
  simp only [matmul]
  rw [Ideal.matmul_constant_zero_apply, ← Equiv.sum_comp (contrEquiv1 dot_S256x256_S8192x256_S256x8192_1_1_0_0_n_n 256 rfl rfl).symm]
  refine Finset.sum_congr rfl fun k _ => ?_
  have hk := contrEquiv1_symm_val dot_S256x256_S8192x256_S256x8192_1_1_0_0_n_n 256 rfl rfl k
  have el : dot_S256x256_S8192x256_S256x8192_1_1_0_0_n_n.lhsIdx i ((contrEquiv1 dot_S256x256_S8192x256_S256x8192_1_1_0_0_n_n 256 rfl rfl).symm k) = ix2 (i 0) k := funext fun a => Fin.ext (by
    match a with
    | ⟨0, _⟩ => exact lhs_rows_0 _ _
    | ⟨1, _⟩ => exact (lhs_rows_1 _ _).trans hk)
  have er : dot_S256x256_S8192x256_S256x8192_1_1_0_0_n_n.rhsIdx i ((contrEquiv1 dot_S256x256_S8192x256_S256x8192_1_1_0_0_n_n 256 rfl rfl).symm k) = ix2 (i 1) k := funext fun a => Fin.ext (by
    match a with
    | ⟨0, _⟩ => exact rhs_centres_0 _ _
    | ⟨1, _⟩ => exact (rhs_centres_1 _ _).trans hk)
  rw [el, er]
  rfl

/-- The lane sum of a [256, 256] block at row p: the sum over the coordinate. -/
theorem rowsum_rows (v : FVec Ideal S256x256 .f32) (hφ : FKind.Formats .f32)
    (hacc : (0x00000000#32 : BitVec 32) = 0x00000000#32) (p : Fin 256) :
    multiReduction (F := Ideal) .add [1] S256 v 0x00000000#32 reduces_S256x256_S256 hφ hacc (ix1 p) = ∑ d : Fin 256, v (ix2 p d) := by
  refine (Ideal.multiReduction_add_single v 0x00000000#32 reduces_S256x256_S256 hφ hacc (ix1 p)).trans ?_
  exact Finset.sum_congr rfl fun d _ => congrArg v (funext fun a => Fin.ext (by match a with | ⟨0, _⟩ => rfl | ⟨1, _⟩ => rfl))

/-- The lane sum of the [8192, 256] codebook at centre q: the sum over the coordinate. -/
theorem rowsum_centres (v : FVec Ideal S8192x256 .f32) (hφ : FKind.Formats .f32)
    (hacc : (0x00000000#32 : BitVec 32) = 0x00000000#32) (q : Fin 8192) :
    multiReduction (F := Ideal) .add [1] S8192 v 0x00000000#32 reduces_S8192x256_S8192 hφ hacc (ix1 q) = ∑ d : Fin 256, v (ix2 q d) := by
  refine (Ideal.multiReduction_add_single v 0x00000000#32 reduces_S8192x256_S8192 hφ hacc (ix1 q)).trans ?_
  exact Finset.sum_congr rfl fun d _ => congrArg v (funext fun a => Fin.ext (by match a with | ⟨0, _⟩ => rfl | ⟨1, _⟩ => rfl))

/-- The stored value at (p, q) of the block. -/
theorem pay_at (xb : FVec Ideal S256x256 .f32) (cb : FVec Ideal S8192x256 .f32) (p : Fin 256) (q : Fin 8192) :
    k0_pay1 (F := Ideal) xb cb (ix2 p q)
      = ((∑ d : Fin 256, xb (ix2 p d) * xb (ix2 p d)) + ∑ d : Fin 256, cb (ix2 q d) * cb (ix2 q d))
        - two * ∑ d : Fin 256, xb (ix2 p d) * cb (ix2 q d) := by
  unfold k0_pay1
  dsimp only
  rw [shapeCast_self, shapeCast_self]
  rw [subf_apply, addf_apply, mulf_apply, broadcast_apply, broadcastTo_a1_ab_apply, broadcastTo_1b_ab_apply,
    shapeCast_a_a1_apply, shapeCast_a_1a_apply, rowsum_rows, rowsum_centres, inner_at]
  rfl

/-- The stored value at (p, q) is the squared distance of the whole table at entry `i`, as soon as row p of the block is
    row `i 0` of the feature rows and centre q of the loaded codebook is centre `i 1`. -/
theorem dist_of_blocks (X : Rows.Idx → EReal) (C : Centres.Idx → EReal) (xb : FVec Ideal S256x256 .f32) (cb : FVec Ideal S8192x256 .f32)
    (p : Fin 256) (q : Fin 8192) (i : Table.Idx)
    (hx : ∀ d : Fin 256, xb (ix2 p d) = X (ix2 (i 0) d)) (hc : ∀ d : Fin 256, cb (ix2 q d) = C (ix2 (i 1) d)) :
    k0_pay1 (F := Ideal) xb cb (ix2 p q) = sqdist X C i := by
  rw [pay_at]
  unfold sqdist
  simp only [hx, hc]

end Cert.KernelIdeal.Body

end
-- ==== Proof.TableArray.lean ====
/-
  From blocks to the array. Grid point t of the 16 takes rows 256·t … 256·t + 255 of the flattened features and
  the whole codebook, and writes back rows 256·t … 256·t + 255 of the [4096, 8192] table; what it writes is that
  block of the squared-distance table `Cert.SqDist.sqdist` of the flattened features and codebook (the payload
  read at an entry, the blocks read where the output block says). The 16 blocks tile the table, so after the run the
  table is `sqdist`. Before the region the program flattens its two arguments, after it it reshapes the table to
  [16, 256, 8192]: the result is `Cert.SqDist.result` of the arguments.
-/
import proofs.«157094_g30906584662302_cont_sun_m_844_13_alg».proof.Proof.Gen.KernelIdeal.Frame
import proofs.«157094_g30906584662302_cont_sun_m_844_13_alg».proof.Proof.Payload
import Idealize.ShloMosaic.Lib.Pipeline.Value
import Idealize.ShloMosaic.Lib.StableHlo.Run

set_option maxRecDepth 16384

noncomputable section

namespace Cert.KernelIdeal.TableValue

open Cert.KernelIdeal Cert.KernelIdeal.Gen Cert.KernelIdeal.Body Idealize.ShloMosaic Idealize.ShloMosaic.TcCoe Idealize.SL.Sem
open Idealize.ShloMosaic.ValueIdx Cert.SqDist
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 16 points: the feature block moves with the output block along the rows,
    the codebook block stays, and no block moves along the second axis. -/
theorem block_index : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 15
    ∧ win0_2.index t (1 : Fin 2) = 0 :=
  (by decide +kernel : ∀ t : Fin grid0.N, _)

/-- Every one of the 16 row blocks is some point's. -/
theorem block_onto : ∀ q0 : Fin 16, ∃ t : Fin cfg0.N, win0_2.index t = ![q0.val, 0] :=
  (by decide +kernel : ∀ q0 : Fin 16, ∃ t : Fin grid0.N, win0_2.index t = ![q0.val, 0])

/-- What point t writes back is its block of the squared-distance table of the flattened features and codebook. -/
theorem flushed_table (c : Dev nD) (t : Fin cfg0.N) :
    (dats m 0 c).flushed 2 t
      = ((cfg0.win 2).blk t).view.read (Elt Ideal) (sqdist (V m c main_call0_v0) (V m c main_call0_v1)) := by
  show (cfg0.win 2).cut (grid0.coords t) ((dats m 0 c).after 2 t) = _
  rw [after0_2]
  unfold out0_2
  rw [View.canon_unit_zero zero_offsets]
  simp only [View.ld_unit_zero (S := S256x256) zero_offsets, View.ld_unit_zero (S := S8192x256) zero_offsets]
  obtain ⟨e0, e1, e2, e3, e4, e5⟩ := block_index t
  funext j
  obtain ⟨p, q, rfl⟩ : ∃ (p : Fin 256) (q : Fin 8192), j = ix2 p q := ⟨j 0, j 1, eq_ix2 (n0 := 256) (n1 := 8192) j⟩
  show k0_pay1 (F := Ideal) (iblk m c 0 t) (iblk m c 1 t) (ix2 p q)
    = sqdist (V m c main_call0_v0) (V m c main_call0_v1) (((cfg0.win 2).blk t).view.emb (ix2 p q))
  refine dist_of_blocks (V m c main_call0_v0) (V m c main_call0_v1) (iblk m c 0 t) (iblk m c 1 t) p q
    (((cfg0.win 2).blk t).view.emb (ix2 p q)) (fun d => ?_) (fun d => ?_)
  · show V m c main_call0_v0 (((cfg0.win 0).blk t).view.emb (ix2 p d)) = _
    refine congrArg (V m c main_call0_v0) (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 256 + 1 * d.val = d.val; omega
  · show V m c main_call0_v1 (((cfg0.win 1).blk t).view.emb (ix2 q d)) = _
    refine congrArg (V m c main_call0_v1) (funext fun a => Fin.ext ?_)
    match a with
    | ⟨0, _⟩ => show win0_1.index t (0 : Fin 2) * 8192 + 1 * q.val = win0_2.index t (1 : Fin 2) * 8192 + 1 * q.val; omega
    | ⟨1, _⟩ => show win0_1.index t (1 : Fin 2) * 256 + 1 * d.val = d.val; omega

/-- An entry of the table is in point t's block iff each coordinate is in the block's range on its axis. -/
theorem mem_block (t : Fin cfg0.N) (i : S4096x8192.Idx) :
    i ∈ ((cfg0.win 2).blk t).view.set ↔ ∀ a : Fin 2, win0_2.index t a * S256x8192.size a ≤ (i a).val ∧ (i a).val < win0_2.index t a * S256x8192.size a + S256x8192.size a := by
  show i ∈ ((View.whole main_call0_v2).slice (win0_2.rect t)).set ↔ _
  rw [View.set_slice_whole, Rect.mem_set_unit]
  exact Iff.rfl

/-- The 16 blocks cover the table: row r is in the block of point r / 256. -/
theorem covered (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 8192 ≤ (i 1).val ∧ (i 1).val < win0_2.index t (1 : Fin 2) * 8192 + 8192; omega

/-- The table after the run is the squared-distance table of the flattened features and codebook. -/
theorem table_final (c : Dev nD) :
    (dats m 0 c).arrAt 2 cfg0.N = sqdist (V m c main_call0_v0) (V m c main_call0_v1) :=
  (dats m 0 c).arrAt_eq_of_cover 2 _ (fun t _ => flushed_table m c t) covered

/-- The region finds the features flattened to 4096 rows. -/
theorem rows_eq (c : Dev nD) :
    (V m c main_call0_v0 : S4096x256.Idx → EReal)
      = shapeCast S4096x256 (m ((c : Thread nD τ).loc main_arg0)) shapeCasts_S16x256x256_S4096x256 := by
  show StableHlo.after hostOps0 (fun b => m (c, b)) (Proc.devRef .tc main_call0_v0) = _
  after_results
  rfl

/-- The region finds the codebook flattened to 8192 centres. -/
theorem centres_eq (c : Dev nD) :
    (V m c main_call0_v1 : S8192x256.Idx → EReal)
      = shapeCast S8192x256 (m ((c : Thread nD τ).loc main_arg1)) shapeCasts_S1x8192x256_S8192x256 := by
  show StableHlo.after hostOps0 (fun b => m (c, b)) (Proc.devRef .tc main_call0_v1) = _
  after_results
  rfl

/-- The program's result: the table after the run, reshaped by the line after the region. -/
theorem result_tail (c : Dev nD) :
    Pipeline.afterTail₀ cfgs (dats m) 0 (V0 m) [hostOps1] c main_v0
      = result (m ((c : Thread nD τ).loc main_arg0)) (m ((c : Thread nD τ).loc main_arg1)) := by
  unfold Pipeline.afterTail₀
  show StableHlo.after hostOps1 _ (Proc.devRef .tc main_v0) = _
  after_results
  show shapeCast S16x256x8192 (Pipeline.withArrays spec0 c (V0 m c) (fun w => (dats m 0 c).arrAt w cfg0.N)
    (Proc.devRef .tc main_call0_v2)) shapeCasts_S4096x8192_S16x256x8192 = _
  rw [show Pipeline.withArrays spec0 c (V0 m c) (fun w => (dats m 0 c).arrAt w cfg0.N) (Proc.devRef .tc main_call0_v2)
      = sqdist (V m c main_call0_v0) (V m c main_call0_v1) from
    (Pipeline.withArrays_arr spec0 launch0.win.arr_inj c _ _ 2).trans (table_final m c), rows_eq, centres_eq]
  rfl

/-- The run, read: the result array holds the squared distances of the arguments, and the arguments are unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v0 (Pipeline.mem_restRefs_of main_v0 (by decide) (by decide))).trans (result_tail m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.TableValue

end
-- ==== Proof.lean ====
/-
  Squared Euclidean distances from 4096 feature vectors to 8192 codebook centres, in 256 coordinates:

      out[b, s, k] = (‖x[b, s, :]‖² + ‖c[0, k, :]‖²) - 2 · ⟨x[b, s, :], c[0, k, :]⟩.

  The kernel computes it over 16 blocks of 256 feature rows, the whole codebook resident: per block one matrix
  product for the inner products, two lane sums of squares for the norms, and the combination above. The
  reference computes the same expression on the whole arrays with host sums and one host contraction against the
  transposed codebook. Over the extended reals a lane sum and a host sum from 0 are both the sum over the 256
  coordinates, the matrix product into a zero accumulator and the host contraction are both the sum of the
  products, and the two programs associate the combination the same way — the two norms are added first, twice the
  inner product is subtracted —, so the two results are one function of the arguments, `Cert.SqDist.result`,
  entry by entry, with no further law of the extended reals and no use of the inputs' finiteness.

  The kernel's side: what a grid point writes back is its block of the squared-distance table (the body's stored
  value read at an entry, `Cert.KernelIdeal.Body`), the 16 blocks tile the table, and the reshapes around the region
  are the specification's (`Cert.KernelIdeal.TableValue`). The reference's side: its run read one operation at a
  time at an entry (`Cert.ReferenceIdeal.RefValue`). The three frames are the generated ones (the reference's is
  its generated run with the result dropped); the idealization rewrote nothing, so `preserves` is trivial.
-/
import proofs.«157094_g30906584662302_cont_sun_m_844_13_alg».proof.Defs
import proofs.«157094_g30906584662302_cont_sun_m_844_13_alg».proof.Proof.Gen.Kernel
import proofs.«157094_g30906584662302_cont_sun_m_844_13_alg».proof.Proof.Gen.Kernel.Skeleton
import proofs.«157094_g30906584662302_cont_sun_m_844_13_alg».proof.Proof.Gen.Kernel.Launch
import proofs.«157094_g30906584662302_cont_sun_m_844_13_alg».proof.Proof.Gen.Kernel.Points
import proofs.«157094_g30906584662302_cont_sun_m_844_13_alg».proof.Proof.Gen.Kernel.Frame
import proofs.«157094_g30906584662302_cont_sun_m_844_13_alg».proof.Proof.Gen.KernelIdeal
import proofs.«157094_g30906584662302_cont_sun_m_844_13_alg».proof.Proof.Gen.KernelIdeal.Skeleton
import proofs.«157094_g30906584662302_cont_sun_m_844_13_alg».proof.Proof.Gen.KernelIdeal.Launch
import proofs.«157094_g30906584662302_cont_sun_m_844_13_alg».proof.Proof.Gen.KernelIdeal.Points
import proofs.«157094_g30906584662302_cont_sun_m_844_13_alg».proof.Proof.Gen.KernelIdeal.Frame
import proofs.«157094_g30906584662302_cont_sun_m_844_13_alg».proof.Proof.Gen.ReferenceIdeal
import proofs.«157094_g30906584662302_cont_sun_m_844_13_alg».proof.Proof.Gen.ReferenceIdeal.Run
import proofs.«157094_g30906584662302_cont_sun_m_844_13_alg».proof.Proof.Gen.ReferenceIdeal.Read
import proofs.«157094_g30906584662302_cont_sun_m_844_13_alg».proof.Proof.Gen.Pre_finite_inputs
import proofs.«157094_g30906584662302_cont_sun_m_844_13_alg».proof.Proof.SqDist
import proofs.«157094_g30906584662302_cont_sun_m_844_13_alg».proof.Proof.RefTable
import proofs.«157094_g30906584662302_cont_sun_m_844_13_alg».proof.Proof.TableArray
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's both end at the squared distances of
    the arguments, `Cert.SqDist.result`: the kernel's by its blocks, the reference's by its operations read at an
    entry, the arguments agreeing. -/
theorem algebraic : Cert.algebraic_KernelIdeal_ReferenceIdeal := by
  intro m ρ m' ρ' _ hagree
  refine ⟨fun c => Cert.SqDist.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.TableValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
